-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x16 : Shape := ⟨2, ![8192, 16]⟩
abbrev S8192x8192 : Shape := ⟨2, ![8192, 8192]⟩
abbrev S16x16 : Shape := ⟨2, ![16, 16]⟩
abbrev S8192 : Shape := ⟨1, ![8192]⟩
abbrev S_ : Shape := ⟨0, ![]⟩

class Facts : Prop where
  bcast_S_S8192x16 : S_.BroadcastsInDim S8192x16 (![] : Fin 0 → Fin S8192x16.rank)
  reducesTo_S8192x16_S_d0_1 : S8192x16.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S16x16 : S_.BroadcastsInDim S16x16 (![] : Fin 0 → Fin S16x16.rank)
  reducesTo_S16x16_S_d0_1 : S16x16.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  main_v23

def fn {F : FTy → Type} [FloatOps F] (main_arg0 : FVec F S8192x16 .f32) (main_arg1 : FVec F S8192x8192 .f32) (main_arg2 : FVec F S8192x8192 .f32) (main_arg3 : FVec F S16x16 .f32) (main_arg4 : FVec F S8192 .f32) : IVec S_ 1 :=
  let main_v0 : FVec F S8192x16 .f32 := Host.absf main_arg0
  let main_cst : FVec F S_ .f32 := constant S_ .f32 0x7F800000#32
  let main_v1 : FVec F S8192x16 .f32 := broadcastInDim S8192x16 ![] bcast_S_S8192x16 main_cst
  let main_v2 : IVec S8192x16 1 := cmpf .olt main_v0 main_v1
  let main_c : IVec S_ 1 := constantI S_ 1 1#1
  let main_v3 : IVec S_ 1 := (fun x v => Host.reduce IntOp.andi x v reducesTo_S8192x16_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S16x16 .f32 := Host.absf main_arg3
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg4 main_v13 main_v16
-- ==== Kernel.lean ====
abbrev S8192x16 : Shape := ⟨2, ![8192, 16]⟩
abbrev S8192x8192 : Shape := ⟨2, ![8192, 8192]⟩
abbrev S16x16 : Shape := ⟨2, ![16, 16]⟩
abbrev S8192 : Shape := ⟨1, ![8192]⟩
abbrev S256x8192 : Shape := ⟨2, ![256, 8192]⟩
abbrev S256x16 : Shape := ⟨2, ![256, 16]⟩
abbrev S1x8192 : Shape := ⟨2, ![1, 8192]⟩

abbrev nBuf : Space → Nat
  | .hbm => 9
  | .vmem => 11
  | .smem => 0
  | _ => 0

abbrev bufTy : (tb : Table) → Fin (tcTables nBuf tb) → BufTy
  | .hbm, ⟨0, _⟩ => ⟨S8192x16, .f32⟩
  | .hbm, ⟨1, _⟩ => ⟨S8192x8192, .f32⟩
  | .hbm, ⟨2, _⟩ => ⟨S8192x8192, .f32⟩
  | .hbm, ⟨3, _⟩ => ⟨S16x16, .f32⟩
  | .hbm, ⟨4, _⟩ => ⟨S8192, .f32⟩
  | .hbm, ⟨5, _⟩ => ⟨S8192x16, .f32⟩
  | .hbm, ⟨6, _⟩ => ⟨S8192x16, .f32⟩
  | .hbm, ⟨7, _⟩ => ⟨S1x8192, .f32⟩
  | .hbm, ⟨8, _⟩ => ⟨S8192x16, .f32⟩
  | .local _ .vmem, ⟨0, _⟩ => ⟨S256x8192, .f32⟩
  | .local _ .vmem, ⟨1, _⟩ => ⟨S256x8192, .f32⟩
  | .local _ .vmem, ⟨2, _⟩ => ⟨S8192x16, .f32⟩
  | .local _ .vmem, ⟨3, _⟩ => ⟨S256x16, .f32⟩
  | .local _ .vmem, ⟨4, _⟩ => ⟨S256x16, .f32⟩
  | .local _ .vmem, ⟨5, _⟩ => ⟨S256x8192, .f32⟩
  | .local _ .vmem, ⟨6, _⟩ => ⟨S256x8192, .f32⟩
  | .local _ .vmem, ⟨7, _⟩ => ⟨S1x8192, .f32⟩
  | .local _ .vmem, ⟨8, _⟩ => ⟨S8192x16, .f32⟩
  | .local _ .vmem, ⟨9, _⟩ => ⟨S256x16, .f32⟩
  | .local _ .vmem, ⟨10, _⟩ => ⟨S256x16, .f32⟩
  | _, _ => ⟨S8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8192x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S256x8192_S256x8192_0_0 : ∀ a, (![0, 0] : Fin 2 → Nat) a + S256x8192.size a ≤ S256x8192.size a
  h_S256x8192 : 0 < S256x8192.numel
  bitsLt_bf16_f32 : FTy.bits .bf16 < FTy.bits .f32
  inb_S8192x16_S8192x16_0_0 : ∀ a, (![0, 0] : Fin 2 → Nat) a + S8192x16.size a ≤ S8192x16.size a
  h_S8192x16 : 0 < S8192x16.numel
  shapeCasts_S8192x16_S8192x16 : S8192x16.ShapeCasts S8192x16
  inb_S256x16_S256x16_0_0 : ∀ a, (![0, 0] : Fin 2 → Nat) a + S256x16.size a ≤ S256x16.size a
  h_S256x16 : 0 < S256x16.numel
  shapeCasts_S8192_S1x8192 : S8192.ShapeCasts S1x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S256x8192 : S1x8192.Broadcasts S256x8192
  dot_S8192x16_S16x16_S8192x16_1_0_0_1_n_n_wf : DotDims.WF S8192x16 S16x16 S8192x16 [1] [0] [0] [1] [] []
  dot_S256x8192_S8192x16_S256x16_1_0_0_1_n_n_wf : DotDims.WF S256x8192 S8192x16 S256x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x16.size a ≤ S8192x16.size a
  hwx0_1 : ∀ i : grid0.Coords, EltTy.bits .f32 = 32 ∨ (Rect.block (s := S8192x16) S8192x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S8192x16.size a
  hwx0_2 : ∀ i : grid0.Coords, EltTy.bits .f32 = 32 ∨ (Rect.block (s := S8192x16) S256x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .f32 = 32 ∨ (Rect.block (s := S8192x8192) S256x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x8192.size a ≤ S1x8192.size a
  hwx1_1 : ∀ i : grid1.Coords, EltTy.bits .f32 = 32 ∨ (Rect.block (s := S1x8192) S1x8192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x16.size a ≤ S8192x16.size a
  hwx1_2 : ∀ i : grid1.Coords, EltTy.bits .f32 = 32 ∨ (Rect.block (s := S8192x16) S8192x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x16.size a ≤ S8192x16.size a
  hwx1_3 : ∀ i : grid1.Coords, EltTy.bits .f32 = 32 ∨ (Rect.block (s := S8192x16) S256x16.size (cc1_transform_3 i) (hinb1_3 i)).WholeWords (EltTy.packing .f32)

variable [Facts₀]

def dot_S8192x16_S16x16_S8192x16_1_0_0_1_n_n : DotDims S8192x16 S16x16 S8192x16 where
  lhsContracting := [1]
  rhsContracting := [0]
  lhsNonContracting := [0]
  rhsNonContracting := [1]
  lhsBatch := []
  rhsBatch := []
  wf := dot_S8192x16_S16x16_S8192x16_1_0_0_1_n_n_wf
def dot_S256x8192_S8192x16_S256x16_1_0_0_1_n_n : DotDims S256x8192 S8192x16 S256x16 where
  lhsContracting := [1]
  rhsContracting := [0]
  lhsNonContracting := [0]
  rhsNonContracting := [1]
  lhsBatch := []
  rhsBatch := []
  wf := dot_S256x8192_S8192x16_S256x16_1_0_0_1_n_n_wf

abbrev win0_0 : Pipeline.Window sig grid0 :=
  Pipeline.Window.ofSpec (Memref.whole main_arg2) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x8192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S8192x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x16 : Shape := ⟨2, ![8192, 16]⟩
abbrev S8192x8192 : Shape := ⟨2, ![8192, 8192]⟩
abbrev S16x16 : Shape := ⟨2, ![16, 16]⟩
abbrev S8192 : Shape := ⟨1, ![8192]⟩
abbrev S1x8192 : Shape := ⟨2, ![1, 8192]⟩

abbrev nBuf : Space → Nat
  | .hbm => 11
  | .vmem => 0
  | .smem => 0
  | _ => 0

abbrev bufTy : (tb : Table) → Fin (tcTables nBuf tb) → BufTy
  | .hbm, ⟨0, _⟩ => ⟨S8192x16, .f32⟩
  | .hbm, ⟨1, _⟩ => ⟨S8192x8192, .f32⟩
  | .hbm, ⟨2, _⟩ => ⟨S8192x8192, .f32⟩
  | .hbm, ⟨3, _⟩ => ⟨S16x16, .f32⟩
  | .hbm, ⟨4, _⟩ => ⟨S8192, .f32⟩
  | .hbm, ⟨5, _⟩ => ⟨S8192x16, .f32⟩
  | .hbm, ⟨6, _⟩ => ⟨S8192x16, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x16, .f32⟩
  | _, _ => ⟨S8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S8192x16_S16x16_S8192x16_1_0_0_1_n_n_wf : DotDims.WF S8192x16 S16x16 S8192x16 [1] [0] [0] [1] [] []
  dot_S8192x8192_S8192x16_S8192x16_1_0_0_1_n_n_wf : DotDims.WF S8192x8192 S8192x16 S8192x16 [1] [0] [0] [1] [] []

variable [Facts₀]

def dot_S8192x16_S16x16_S8192x16_1_0_0_1_n_n : DotDims S8192x16 S16x16 S8192x16 where
  lhsContracting := [1]
  rhsContracting := [0]
  lhsNonContracting := [0]
  rhsNonContracting := [1]
  lhsBatch := []
  rhsBatch := []
  wf := dot_S8192x16_S16x16_S8192x16_1_0_0_1_n_n_wf
def dot_S8192x8192_S8192x16_S8192x16_1_0_0_1_n_n : DotDims S8192x8192 S8192x16 S8192x16 where
  lhsContracting := [1]
  rhsContracting := [0]
  lhsNonContracting := [0]
  rhsNonContracting := [1]
  lhsBatch := []
  rhsBatch := []
  wf := dot_S8192x8192_S8192x16_S8192x16_1_0_0_1_n_n_wf

class Facts : Prop extends Facts₀ where

variable [Facts]
-- ==== Proof.Payload.lean ====
/-
  What one grid point of either kernel stores, read at an entry of its [256, 16] tile.
  Both bodies narrow their operands to bf16 (the identity on extended reals), take ONE matrix product of a
  [256, 8192] row block with a resident [8192, 16] matrix into a zero accumulator, and store it. So entry (p, q)
  of the stored tile is ∑ₖ L[p, k] · R[k, q] over the 8192 contraction positions, where for the first kernel
  L is the loaded row block itself and for the second L[p, k] = A[p, k] · f[0, k], the row block with its columns
  scaled by the filter row (a [1, 8192] vector broadcast down the 256 rows).
-/
import proofs.«167568_j67516885893333_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-! ## The contraction's index maps, axis by axis: output (p, q) and position k meet the left operand at (p, k) and the
    right operand at (k, q) -/

theorem lhs_row (i : S256x16.Idx) (z : dot_S256x8192_S8192x16_S256x16_1_0_0_1_n_n.contr.Idx) :
    (dot_S256x8192_S8192x16_S256x16_1_0_0_1_n_n.lhsIdx i z 0).val = (i 0).val := by
  unfold DotDims.lhsIdx
  rw [dif_neg (show ¬(0 : Fin S256x8192.rank) ∈ dot_S256x8192_S8192x16_S256x16_1_0_0_1_n_n.lhsBatch by decide), dif_pos (show (0 : Fin S256x8192.rank) ∈ dot_S256x8192_S8192x16_S256x16_1_0_0_1_n_n.lhsNonContracting by decide)]
  rfl
theorem lhs_pos (i : S256x16.Idx) (z : dot_S256x8192_S8192x16_S256x16_1_0_0_1_n_n.contr.Idx) :
    (dot_S256x8192_S8192x16_S256x16_1_0_0_1_n_n.lhsIdx i z 1).val = (z ⟨0, by decide⟩).val :=
  dot_S256x8192_S8192x16_S256x16_1_0_0_1_n_n.lhsIdx_val_of_single rfl i z
theorem rhs_pos (i : S256x16.Idx) (z : dot_S256x8192_S8192x16_S256x16_1_0_0_1_n_n.contr.Idx) :
    (dot_S256x8192_S8192x16_S256x16_1_0_0_1_n_n.rhsIdx i z 0).val = (z ⟨0, by decide⟩).val :=
  dot_S256x8192_S8192x16_S256x16_1_0_0_1_n_n.rhsIdx_val_of_single rfl i z
theorem rhs_col (i : S256x16.Idx) (z : dot_S256x8192_S8192x16_S256x16_1_0_0_1_n_n.contr.Idx) :
    (dot_S256x8192_S8192x16_S256x16_1_0_0_1_n_n.rhsIdx i z 1).val = (i 1).val := by
  unfold DotDims.rhsIdx
  rw [dif_neg (show ¬(1 : Fin S8192x16.rank) ∈ dot_S256x8192_S8192x16_S256x16_1_0_0_1_n_n.rhsBatch by decide), dif_pos (show (1 : Fin S8192x16.rank) ∈ dot_S256x8192_S8192x16_S256x16_1_0_0_1_n_n.rhsNonContracting by decide)]
  rfl

/-- The tile's matrix product into a zero accumulator, at entry (p, q): the plain sum of products over the 8192
    contraction positions. -/
theorem tile_matmul (l : FVec Ideal S256x8192 .bf16) (r : FVec Ideal S8192x16 .bf16) (p : Fin 256) (q : Fin 16) :
    matmul dot_S256x8192_S8192x16_S256x16_1_0_0_1_n_n none l r (constant (F := Ideal) S256x16 .f32 0x00000000#32) (ix2 p q)
      = ∑ k : Fin 8192, l (ix2 p k) * r (ix2 k q) := by
  simp only [matmul]
  rw [Ideal.matmul_constant_zero_apply, ← Equiv.sum_comp (contrEquiv1 dot_S256x8192_S8192x16_S256x16_1_0_0_1_n_n 8192 rfl rfl).symm]
  refine Finset.sum_congr rfl fun k _ => ?_
  have hk := contrEquiv1_symm_val dot_S256x8192_S8192x16_S256x16_1_0_0_1_n_n 8192 rfl rfl k
  have el : dot_S256x8192_S8192x16_S256x16_1_0_0_1_n_n.lhsIdx (ix2 p q) ((contrEquiv1 dot_S256x8192_S8192x16_S256x16_1_0_0_1_n_n 8192 rfl rfl).symm k) = ix2 p k := funext fun a => Fin.ext (by
    match a with
    | ⟨0, _⟩ => exact lhs_row _ _
    | ⟨1, _⟩ => exact (lhs_pos _ _).trans hk)
  have er : dot_S256x8192_S8192x16_S256x16_1_0_0_1_n_n.rhsIdx (ix2 p q) ((contrEquiv1 dot_S256x8192_S8192x16_S256x16_1_0_0_1_n_n 8192 rfl rfl).symm k) = ix2 k q := funext fun a => Fin.ext (by
    match a with
    | ⟨0, _⟩ => exact (rhs_pos _ _).trans hk
    | ⟨1, _⟩ => exact rhs_col _ _)
  rw [el, er]

/-- A [1, 8192] row broadcast down 256 rows reads, at (p, k), the row's entry (0, k). -/
theorem row_broadcast_at (f : FVec Ideal S1x8192 .f32) (h : S1x8192.Broadcasts S256x8192) (p : Fin 256) (k : Fin 8192) :
    broadcastTo S256x8192 f h (ix2 p k) = f (ix2 0 k) :=
  broadcastTo_apply f h (ix2 p k) (ix2 0 k) (fun a => match a with
    | ⟨0, _⟩ => by show 0 = if (1 : Nat) = 1 then 0 else p.val; rw [if_pos rfl]
    | ⟨1, _⟩ => by show k.val = if (8192 : Nat) = 1 then 0 else k.val; rw [if_neg (by decide)])

/-- The first kernel's stored tile at (p, q): the row block times the resident matrix. -/
theorem payload0_at (a : FVec Ideal S256x8192 .f32) (b : FVec Ideal S8192x16 .f32) (p : Fin 256) (q : Fin 16) :
    k0_pay1 (F := Ideal) a b (ix2 p q) = ∑ k : Fin 8192, a (ix2 p k) * b (ix2 k q) := by
  unfold k0_pay1
  refine (tile_matmul _ _ p q).trans ?_
  refine Finset.sum_congr rfl fun k _ => ?_
  rw [truncf_apply, truncf_apply, shapeCast_self]

/-- The second kernel's stored tile at (p, q): the row block, its columns scaled by the filter row, times the
    resident matrix. -/
theorem payload1_at (a : FVec Ideal S256x8192 .f32) (f : FVec Ideal S1x8192 .f32) (b : FVec Ideal S8192x16 .f32)
    (p : Fin 256) (q : Fin 16) :
    k1_pay1 (F := Ideal) a f b (ix2 p q) = ∑ k : Fin 8192, (a (ix2 p k) * f (ix2 0 k)) * b (ix2 k q) := by
  unfold k1_pay1
  refine (tile_matmul _ _ p q).trans ?_
  refine Finset.sum_congr rfl fun k _ => ?_
  rw [truncf_apply, truncf_apply, shapeCast_self, mulf_apply, row_broadcast_at, shapeCast_self]

end Cert.KernelIdeal.Tile

end
-- ==== Proof.Spec.lean ====
/-
  The layer as one function of its five arrays, over the extended reals, index by index.
  With X : [8192,16] the node features, W : [16,16] the weights, Ψ⁻¹ and Ψ : [8192,8192] the inverse and the
  forward wavelet bases and f : [8192] the spectral filter, the result is
      out[r, c] = ∑ₖ (Ψ[r, k] · f[k]) · S[k, c],    S[k, c] = ∑ⱼ Ψ⁻¹[k, j] · T[j, c],    T[j, c] = ∑ᵢ X[j, i] · W[i, c].
  Every sum is a finite sum in the commutative monoid of extended reals, each product is taken in the order
  written; no law of the reals is used, so nothing here asks for finite entries.
-/
import Idealize.ShloMosaic.PureOps.Ideal
import Idealize.ShloMosaic.Lib.ValueIdx

noncomputable section

namespace Cert.Spec

open Idealize.ShloMosaic Idealize.ShloMosaic.ValueIdx

abbrev Sn16 : Shape := ⟨2, ![8192, 16]⟩
abbrev Snn : Shape := ⟨2, ![8192, 8192]⟩
abbrev S16 : Shape := ⟨2, ![16, 16]⟩
abbrev Sn : Shape := ⟨1, ![8192]⟩
abbrev S1n : Shape := ⟨2, ![1, 8192]⟩

/-- The small product X · W: entry (r, c) sums X[r, i] · W[i, c] over the 16 input channels. -/
def proj (x : FVec Ideal Sn16 .f32) (w : FVec Ideal S16 .f32) : FVec Ideal Sn16 .f32 :=
  fun i => ∑ k : Fin 16, x (ix2 (n0 := 8192) (n1 := 16) ⟨(i 0).val, (i 0).isLt⟩ k) * w (ix2 (n0 := 16) (n1 := 16) k ⟨(i 1).val, (i 1).isLt⟩)

/-- A square basis times a tall matrix: entry (r, c) sums A[r, k] · B[k, c] over the 8192 nodes. -/
def mm (a : FVec Ideal Snn .f32) (b : FVec Ideal Sn16 .f32) : FVec Ideal Sn16 .f32 :=
  fun i => ∑ k : Fin 8192, a (ix2 (n0 := 8192) (n1 := 8192) ⟨(i 0).val, (i 0).isLt⟩ k) * b (ix2 (n0 := 8192) (n1 := 16) k ⟨(i 1).val, (i 1).isLt⟩)

/-- The same product with the columns of the basis scaled by a row vector first: entry (r, c) sums
    (A[r, k] · f[0, k]) · B[k, c]. -/
def mmScaled (a : FVec Ideal Snn .f32) (f : FVec Ideal S1n .f32) (b : FVec Ideal Sn16 .f32) : FVec Ideal Sn16 .f32 :=
  fun i => ∑ k : Fin 8192, (a (ix2 (n0 := 8192) (n1 := 8192) ⟨(i 0).val, (i 0).isLt⟩ k) * f (ix2 (n0 := 1) (n1 := 8192) 0 k))
    * b (ix2 (n0 := 8192) (n1 := 16) k ⟨(i 1).val, (i 1).isLt⟩)

/-- A vector laid out as one row. -/
def row (f : FVec Ideal Sn .f32) : FVec Ideal S1n .f32 :=
  fun i => f (ix1 (n := 8192) ⟨(i 1).val, (i 1).isLt⟩)

/-- The whole layer: Ψ · diag(f) · (Ψ⁻¹ · (X · W)). -/
def result (x : FVec Ideal Sn16 .f32) (wav winv : FVec Ideal Snn .f32) (w : FVec Ideal S16 .f32) (f : FVec Ideal Sn .f32) :
    FVec Ideal Sn16 .f32 :=
  mmScaled wav (row f) (mm winv (proj x w))

end Cert.Spec

end
-- ==== Proof.Region0.lean ====
/-
  The first kernel region, read as a value at the extended reals: whatever the TensorCore's buffers hold when the
  region is entered, after its 32 grid points the output array is the product of the [8192, 8192] operand with the
  [8192, 16] operand.
  Point t loads rows 256·t … 256·t + 255 of the square operand (all 8192 columns) and the whole tall operand, and writes
  back rows 256·t … 256·t + 255 of the output; entry (p, q) of that tile is ∑ₖ A[256·t + p, k] · B[k, q], which is
  entry (256·t + p, q) of the whole product. The 32 row tiles cover every row: row r lies in tile r / 256.
-/
import proofs.«167568_j67516885893333_1_alg».proof.Proof.Gen.KernelIdeal.Frame
import proofs.«167568_j67516885893333_1_alg».proof.Proof.Payload
import proofs.«167568_j67516885893333_1_alg».proof.Proof.Spec

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

theorem offsets_zero : (![0, 0] : Fin 2 → Nat) = fun _ => 0 := funext fun a => by fin_cases a <;> rfl

/-- The block indices of the three windows at grid point t: the row-blocked operand and the output sit at block row t,
    the resident operand at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is tile t of the whole product of the two operand arrays as the region finds them. -/
theorem flushed_eq (c : Dev nD) (t : Fin cfg0.N) :
    (dat0 (F := Ideal) V c).flushed 2 t
      = ((cfg0.win 2).blk t).view.read (Elt Ideal) (Cert.Spec.mm (V c main_arg2) (V c main_v0)) := by
  show (cfg0.win 2).cut (grid0.coords t) ((dat0 V c).after 2 t) = _
  rw [after0_2]
  unfold out0_2
  rw [View.canon_unit_zero offsets_zero]
  simp only [View.ld_unit_zero (S := S256x8192) offsets_zero, View.ld_unit_zero (S := S8192x16) offsets_zero]
  obtain ⟨e0, e1, e2, e3, e4, e5⟩ := block_indices t
  funext j
  obtain ⟨p, q, rfl⟩ : ∃ (p : Fin 256) (q : Fin 16), j = ix2 p q := ⟨j 0, j 1, eq_ix2 j⟩
  show k0_pay1 (F := Ideal) (iblk0 V c 0 t) (iblk0 V c 1 t) (ix2 p q)
    = Cert.Spec.mm (V c main_arg2) (V c main_v0) (((cfg0.win 2).blk t).view.emb (ix2 p q))
  refine (Cert.KernelIdeal.Tile.payload0_at _ _ p q).trans ?_
  unfold Cert.Spec.mm
  refine Finset.sum_congr rfl fun k _ => ?_
  have ha : (iblk0 V c 0 t) (ix2 p k)
      = V c main_arg2 (ix2 (n0 := 8192) (n1 := 8192) ⟨((((cfg0.win 2).blk t).view.emb (ix2 p q)) 0).val, ((((cfg0.win 2).blk t).view.emb (ix2 p q)) 0).isLt⟩ k) := by
    show V c main_arg2 (((cfg0.win 0).blk t).view.emb (ix2 p k)) = _
    refine congrArg (V c main_arg2) (funext fun a => Fin.ext ?_)
    match a with
    | ⟨0, _⟩ =>
      show win0_0.index t (0 : Fin 2) * 256 + 1 * p.val = win0_2.index t (0 : Fin 2) * 256 + 1 * p.val
      omega
    | ⟨1, _⟩ =>
      show win0_0.index t (1 : Fin 2) * 8192 + 1 * k.val = k.val
      omega
  have hb : (iblk0 V c 1 t) (ix2 k q)
      = V c main_v0 (ix2 (n0 := 8192) (n1 := 16) k ⟨((((cfg0.win 2).blk t).view.emb (ix2 p q)) 1).val, ((((cfg0.win 2).blk t).view.emb (ix2 p q)) 1).isLt⟩) := by
    show V c main_v0 (((cfg0.win 1).blk t).view.emb (ix2 k q)) = _
    refine congrArg (V c main_v0) (funext fun a => Fin.ext ?_)
    match a with
    | ⟨0, _⟩ =>
      show win0_1.index t (0 : Fin 2) * 8192 + 1 * k.val = k.val
      omega
    | ⟨1, _⟩ =>
      show win0_1.index t (1 : Fin 2) * 16 + 1 * q.val = win0_2.index t (1 : Fin 2) * 16 + 1 * q.val
      omega
  rw [ha, hb]

/-- An index of the output array is in point t's tile iff each coordinate is in the tile's range on its axis. -/
theorem mem_tile (t : Fin cfg0.N) (i : S8192x16.Idx) :
    i ∈ ((cfg0.win 2).blk t).view.set ↔ ∀ a : Fin 2, win0_2.index t a * S256x16.size a ≤ (i a).val ∧ (i a).val < win0_2.index t a * S256x16.size a + S256x16.size a := by
  show i ∈ ((View.whole main_v1).slice (win0_2.rect t)).set ↔ _
  rw [View.set_slice_whole, Rect.mem_set_unit]
  exact Iff.rfl

/-- Every index of the output array is in the tile of the point numbered by its row divided by 256. -/
theorem covered (i : S8192x16.Idx) :
    ∃ t : Fin cfg0.N, (cfg0.win 2).flush t = true ∧ i ∈ ((cfg0.win 2).blk t).view.set := by
  have hi0 : (i 0).val < 8192 := (i 0).isLt
  have hi1 : (i 1).val < 16 := (i 1).isLt
  have hN : cfg0.N = 32 := N_0
  refine ⟨⟨(i 0).val / 256, by rw [hN]; omega⟩, flush0_2 _, ?_⟩
  rw [mem_tile]
  obtain ⟨e0, e1, e2, e3, e4, e5⟩ := block_indices ⟨(i 0).val / 256, by rw [hN]; omega⟩
  intro a
  match a with
  | ⟨0, _⟩ =>
    show win0_2.index _ (0 : Fin 2) * 256 ≤ (i 0).val ∧ (i 0).val < win0_2.index _ (0 : Fin 2) * 256 + 256
    rw [e4]
    show (i 0).val / 256 * 256 ≤ (i 0).val ∧ (i 0).val < (i 0).val / 256 * 256 + 256
    omega
  | ⟨1, _⟩ =>
    show win0_2.index _ (1 : Fin 2) * 16 ≤ (i 1).val ∧ (i 1).val < win0_2.index _ (1 : Fin 2) * 16 + 16
    rw [e5]
    omega

/-- The output array after the region: the whole product of the two operand arrays as the region found them. -/
theorem array_after (c : Dev nD) :
    (dat0 (F := Ideal) V c).arrAt 2 cfg0.N = Cert.Spec.mm (V c main_arg2) (V c main_v0) :=
  (dat0 (F := Ideal) V c).arrAt_eq_of_cover 2 (Cert.Spec.mm (V c main_arg2) (V c main_v0))
    (fun t _ => flushed_eq V c t) covered

end Cert.KernelIdeal.Region0

end
-- ==== Proof.Region1.lean ====
/-
  The second kernel region, read as a value at the extended reals: whatever the TensorCore's buffers hold when the
  region is entered, after its 32 grid points the output array is the product of the column-scaled square operand
  with the tall operand.
  Point t loads rows 256·t … 256·t + 255 of the square operand, the whole [1, 8192] filter row and the whole tall
  operand, scales column k of the row block by the filter's entry (0, k), and writes back rows 256·t … 256·t + 255 of
  the output; entry (p, q) of that tile is ∑ₖ (A[256·t + p, k] · f[0, k]) · B[k, q], which is entry (256·t + p, q) of
  the whole scaled product. The 32 row tiles cover every row: row r lies in tile r / 256.
-/
import proofs.«167568_j67516885893333_1_alg».proof.Proof.Gen.KernelIdeal.Frame
import proofs.«167568_j67516885893333_1_alg».proof.Proof.Payload
import proofs.«167568_j67516885893333_1_alg».proof.Proof.Spec

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

theorem offsets_zero : (![0, 0] : Fin 2 → Nat) = fun _ => 0 := funext fun a => by fin_cases a <;> rfl

/-- The block indices of the four windows at grid point t: the row-blocked operand and the output sit at block row t,
    the filter row and the resident operand at block (0, 0). -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is tile t of the whole scaled product of the three operand arrays as the region finds
    them. -/
theorem flushed_eq (c : Dev nD) (t : Fin cfg1.N) :
    (dat1 (F := Ideal) V c).flushed 3 t
      = ((cfg1.win 3).blk t).view.read (Elt Ideal) (Cert.Spec.mmScaled (V c main_arg1) (V c main_v2) (V c main_v1)) := by
  show (cfg1.win 3).cut (grid1.coords t) ((dat1 V c).after 3 t) = _
  rw [after1_3]
  unfold out1_3
  rw [View.canon_unit_zero offsets_zero]
  simp only [View.ld_unit_zero (S := S256x8192) offsets_zero, View.ld_unit_zero (S := S1x8192) offsets_zero,
    View.ld_unit_zero (S := S8192x16) offsets_zero]
  obtain ⟨e0, e1, e2, e3, e4, e5, e6, e7⟩ := block_indices t
  funext j
  obtain ⟨p, q, rfl⟩ : ∃ (p : Fin 256) (q : Fin 16), j = ix2 p q := ⟨j 0, j 1, eq_ix2 j⟩
  show k1_pay1 (F := Ideal) (iblk1 V c 0 t) (iblk1 V c 1 t) (iblk1 V c 2 t) (ix2 p q)
    = Cert.Spec.mmScaled (V c main_arg1) (V c main_v2) (V c main_v1) (((cfg1.win 3).blk t).view.emb (ix2 p q))
  refine (Cert.KernelIdeal.Tile.payload1_at _ _ _ p q).trans ?_
  unfold Cert.Spec.mmScaled
  refine Finset.sum_congr rfl fun k _ => ?_
  have ha : (iblk1 V c 0 t) (ix2 p k)
      = V c main_arg1 (ix2 (n0 := 8192) (n1 := 8192) ⟨((((cfg1.win 3).blk t).view.emb (ix2 p q)) 0).val, ((((cfg1.win 3).blk t).view.emb (ix2 p q)) 0).isLt⟩ k) := by
    show V c main_arg1 (((cfg1.win 0).blk t).view.emb (ix2 p k)) = _
    refine congrArg (V c main_arg1) (funext fun a => Fin.ext ?_)
    match a with
    | ⟨0, _⟩ =>
      show win1_0.index t (0 : Fin 2) * 256 + 1 * p.val = win1_3.index t (0 : Fin 2) * 256 + 1 * p.val
      omega
    | ⟨1, _⟩ =>
      show win1_0.index t (1 : Fin 2) * 8192 + 1 * k.val = k.val
      omega
  have hf : (iblk1 V c 1 t) (ix2 0 k) = V c main_v2 (ix2 (n0 := 1) (n1 := 8192) 0 k) := by
    show V c main_v2 (((cfg1.win 1).blk t).view.emb (ix2 0 k)) = _
    refine congrArg (V c main_v2) (funext fun a => Fin.ext ?_)
    match a with
    | ⟨0, _⟩ =>
      show win1_1.index t (0 : Fin 2) * 1 + 1 * 0 = 0
      omega
    | ⟨1, _⟩ =>
      show win1_1.index t (1 : Fin 2) * 8192 + 1 * k.val = k.val
      omega
  have hb : (iblk1 V c 2 t) (ix2 k q)
      = V c main_v1 (ix2 (n0 := 8192) (n1 := 16) k ⟨((((cfg1.win 3).blk t).view.emb (ix2 p q)) 1).val, ((((cfg1.win 3).blk t).view.emb (ix2 p q)) 1).isLt⟩) := by
    show V c main_v1 (((cfg1.win 2).blk t).view.emb (ix2 k q)) = _
    refine congrArg (V c main_v1) (funext fun a => Fin.ext ?_)
    match a with
    | ⟨0, _⟩ =>
      show win1_2.index t (0 : Fin 2) * 8192 + 1 * k.val = k.val
      omega
    | ⟨1, _⟩ =>
      show win1_2.index t (1 : Fin 2) * 16 + 1 * q.val = win1_3.index t (1 : Fin 2) * 16 + 1 * q.val
      omega
  rw [ha, hf, hb]

/-- An index of the output array is in point t's tile iff each coordinate is in the tile's range on its axis. -/
theorem mem_tile (t : Fin cfg1.N) (i : S8192x16.Idx) :
    i ∈ ((cfg1.win 3).blk t).view.set ↔ ∀ a : Fin 2, win1_3.index t a * S256x16.size a ≤ (i a).val ∧ (i a).val < win1_3.index t a * S256x16.size a + S256x16.size a := by
  show i ∈ ((View.whole main_v3).slice (win1_3.rect t)).set ↔ _
  rw [View.set_slice_whole, Rect.mem_set_unit]
  exact Iff.rfl

/-- Every index of the output array is in the tile of the point numbered by its row divided by 256. -/
theorem covered (i : S8192x16.Idx) :
    ∃ t : Fin cfg1.N, (cfg1.win 3).flush t = true ∧ i ∈ ((cfg1.win 3).blk t).view.set := by
  have hi0 : (i 0).val < 8192 := (i 0).isLt
  have hi1 : (i 1).val < 16 := (i 1).isLt
  have hN : cfg1.N = 32 := N_1
  refine ⟨⟨(i 0).val / 256, by rw [hN]; omega⟩, flush1_3 _, ?_⟩
  rw [mem_tile]
  obtain ⟨e0, e1, e2, e3, e4, e5, e6, e7⟩ := block_indices ⟨(i 0).val / 256, by rw [hN]; omega⟩
  intro a
  match a with
  | ⟨0, _⟩ =>
    show win1_3.index _ (0 : Fin 2) * 256 ≤ (i 0).val ∧ (i 0).val < win1_3.index _ (0 : Fin 2) * 256 + 256
    rw [e6]
    show (i 0).val / 256 * 256 ≤ (i 0).val ∧ (i 0).val < (i 0).val / 256 * 256 + 256
    omega
  | ⟨1, _⟩ =>
    show win1_3.index _ (1 : Fin 2) * 16 ≤ (i 1).val ∧ (i 1).val < win1_3.index _ (1 : Fin 2) * 16 + 16
    rw [e7]
    omega

/-- The output array after the region: the whole scaled product of the three operand arrays as the region found
    them. -/
theorem array_after (c : Dev nD) :
    (dat1 (F := Ideal) V c).arrAt 3 cfg1.N = Cert.Spec.mmScaled (V c main_arg1) (V c main_v2) (V c main_v1) :=
  (dat1 (F := Ideal) V c).arrAt_eq_of_cover 3 (Cert.Spec.mmScaled (V c main_arg1) (V c main_v2) (V c main_v1))
    (fun t _ => flushed_eq V c t) covered

end Cert.KernelIdeal.Region1

end
-- ==== Proof.Chain.lean ====
/-
  From the launch memory to the result, through the program's four segments, at the extended reals.
  The host computes T = X · W (a sum over the 16 input channels; the requested precision changes nothing where every
  operation is exact); the first region leaves S = Ψ⁻¹ · T; the host lays the filter f out as one row (a reshape keeps
  the row-major position, so entry (0, k) of the row is f[k]); the second region leaves Ψ · diag(f) · S. No segment
  writes an argument, and the second host stretch writes only the filter row, so each region finds its operands as
  the segment before left them.
-/
import proofs.«167568_j67516885893333_1_alg».proof.Proof.Gen.KernelIdeal.Frame
import proofs.«167568_j67516885893333_1_alg».proof.Proof.KernelIdealRun
import proofs.«167568_j67516885893333_1_alg».proof.Proof.Region0
import proofs.«167568_j67516885893333_1_alg».proof.Proof.Region1
import proofs.«167568_j67516885893333_1_alg».proof.Proof.Spec
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo Idealize.ShloMosaic.ValueIdx

/-! ## The host's small product X · W as a plain sum -/

theorem lhs_row (i : S8192x16.Idx) (z : dot_S8192x16_S16x16_S8192x16_1_0_0_1_n_n.contr.Idx) :
    (dot_S8192x16_S16x16_S8192x16_1_0_0_1_n_n.lhsIdx i z 0).val = (i 0).val := by
  unfold DotDims.lhsIdx
  rw [dif_neg (show ¬(0 : Fin S8192x16.rank) ∈ dot_S8192x16_S16x16_S8192x16_1_0_0_1_n_n.lhsBatch by decide), dif_pos (show (0 : Fin S8192x16.rank) ∈ dot_S8192x16_S16x16_S8192x16_1_0_0_1_n_n.lhsNonContracting by decide)]
  rfl
theorem lhs_pos (i : S8192x16.Idx) (z : dot_S8192x16_S16x16_S8192x16_1_0_0_1_n_n.contr.Idx) :
    (dot_S8192x16_S16x16_S8192x16_1_0_0_1_n_n.lhsIdx i z 1).val = (z ⟨0, by decide⟩).val :=
  dot_S8192x16_S16x16_S8192x16_1_0_0_1_n_n.lhsIdx_val_of_single rfl i z
theorem rhs_pos (i : S8192x16.Idx) (z : dot_S8192x16_S16x16_S8192x16_1_0_0_1_n_n.contr.Idx) :
    (dot_S8192x16_S16x16_S8192x16_1_0_0_1_n_n.rhsIdx i z 0).val = (z ⟨0, by decide⟩).val :=
  dot_S8192x16_S16x16_S8192x16_1_0_0_1_n_n.rhsIdx_val_of_single rfl i z
theorem rhs_col (i : S8192x16.Idx) (z : dot_S8192x16_S16x16_S8192x16_1_0_0_1_n_n.contr.Idx) :
    (dot_S8192x16_S16x16_S8192x16_1_0_0_1_n_n.rhsIdx i z 1).val = (i 1).val := by
  unfold DotDims.rhsIdx
  rw [dif_neg (show ¬(1 : Fin S16x16.rank) ∈ dot_S8192x16_S16x16_S8192x16_1_0_0_1_n_n.rhsBatch by decide), dif_pos (show (1 : Fin S16x16.rank) ∈ dot_S8192x16_S16x16_S8192x16_1_0_0_1_n_n.rhsNonContracting by decide)]
  rfl

/-- The host's contraction of the features with the weights is the small product of the specification, whatever
    precision it was asked for. -/
theorem host_proj (prec : Option ContractPrecision) (x : FVec Ideal S8192x16 .f32) (w : FVec Ideal S16x16 .f32) :
    Host.dotGeneral dot_S8192x16_S16x16_S8192x16_1_0_0_1_n_n prec x w = Cert.Spec.proj x w := by
  funext i
  simp only [Host.dotGeneral]
  rw [Ideal.dotGeneral_apply, ← Equiv.sum_comp (contrEquiv1 dot_S8192x16_S16x16_S8192x16_1_0_0_1_n_n 16 rfl rfl).symm]
  unfold Cert.Spec.proj
  refine Finset.sum_congr rfl fun k _ => ?_
  have hk := contrEquiv1_symm_val dot_S8192x16_S16x16_S8192x16_1_0_0_1_n_n 16 rfl rfl k
  have el : dot_S8192x16_S16x16_S8192x16_1_0_0_1_n_n.lhsIdx i ((contrEquiv1 dot_S8192x16_S16x16_S8192x16_1_0_0_1_n_n 16 rfl rfl).symm k)
      = ix2 (n0 := 8192) (n1 := 16) ⟨(i 0).val, (i 0).isLt⟩ k := funext fun a => Fin.ext (by
    match a with
    | ⟨0, _⟩ => exact lhs_row _ _
    | ⟨1, _⟩ => exact (lhs_pos _ _).trans hk)
  have er : dot_S8192x16_S16x16_S8192x16_1_0_0_1_n_n.rhsIdx i ((contrEquiv1 dot_S8192x16_S16x16_S8192x16_1_0_0_1_n_n 16 rfl rfl).symm k)
      = ix2 (n0 := 16) (n1 := 16) k ⟨(i 1).val, (i 1).isLt⟩ := funext fun a => Fin.ext (by
    match a with
    | ⟨0, _⟩ => exact (rhs_pos _ _).trans hk
    | ⟨1, _⟩ => exact rhs_col _ _)
  rw [el, er]

/-- A [8192] vector reshaped to [1, 8192] is that vector laid out as one row. -/
theorem reshape_row (f : FVec Ideal S8192 .f32) (h : S8192.ShapeCasts S1x8192) :
    shapeCast S1x8192 f h = Cert.Spec.row f := by
  funext i
  unfold Cert.Spec.row
  refine shapeCast_apply f h i (ix1 (n := 8192) ⟨(i 1).val, (i 1).isLt⟩) ?_
  rw [Shape.rowMajor_val_one, Shape.rowMajor_val_two]
  show (i 1).val = (i 0).val * 8192 + (i 1).val
  have h0 : (i 0).val < 1 := (i 0).isLt
  omega

variable (m : (ℓ : Loc nD τ sig) → Buf (Elt Ideal) ℓ) (ρ : Dev nD → PrngReg)

/-! ## What the first region finds -/

theorem entry0_winv (c : Dev nD) : V1 m ρ c main_arg2 = m ((c.tc : Thread nD τ).loc main_arg2) := by
  show StableHlo.after hostOps0 (W0 m ρ c) (Proc.devRef .tc main_arg2) = _
  after_results

theorem entry0_proj (c : Dev nD) :
    V1 m ρ c main_v0 = Cert.Spec.proj (m ((c.tc : Thread nD τ).loc main_arg0)) (m ((c.tc : Thread nD τ).loc main_arg3)) := by
  show StableHlo.after hostOps0 (W0 m ρ c) (Proc.devRef .tc main_v0) = _
  after_results
  exact host_proj _ _ _

/-! ## What the first region leaves, and what the second finds -/

theorem exit0_spectral (c : Dev nD) :
    W2 m ρ c (Proc.devRef .tc main_v1)
      = Cert.Spec.mm (m ((c.tc : Thread nD τ).loc main_arg2))
          (Cert.Spec.proj (m ((c.tc : Thread nD τ).loc main_arg0)) (m ((c.tc : Thread nD τ).loc main_arg3))) := by
  refine (W2_arr m ρ c 2).trans ((Cert.KernelIdeal.Region0.array_after (V1 m ρ) c).trans ?_)
  rw [entry0_winv, entry0_proj]

theorem exit0_wav (c : Dev nD) : W2 m ρ c (Proc.devRef .tc main_arg1) = m ((c.tc : Thread nD τ).loc main_arg1) := by
  refine (W2_of_ne m ρ c main_arg1 (by decide)).trans ?_
  show StableHlo.after hostOps0 (W0 m ρ c) (Proc.devRef .tc main_arg1) = _
  after_results

theorem exit0_filter (c : Dev nD) : W2 m ρ c (Proc.devRef .tc main_arg4) = m ((c.tc : Thread nD τ).loc main_arg4) := by
  refine (W2_of_ne m ρ c main_arg4 (by decide)).trans ?_
  show StableHlo.after hostOps0 (W0 m ρ c) (Proc.devRef .tc main_arg4) = _
  after_results

theorem entry1_wav (c : Dev nD) : V3 m ρ c main_arg1 = m ((c.tc : Thread nD τ).loc main_arg1) := by
  show StableHlo.after hostOps1 (W2 m ρ c) (Proc.devRef .tc main_arg1) = _
  after_results
  exact exit0_wav m ρ c

theorem entry1_spectral (c : Dev nD) :
    V3 m ρ c main_v1
      = Cert.Spec.mm (m ((c.tc : Thread nD τ).loc main_arg2))
          (Cert.Spec.proj (m ((c.tc : Thread nD τ).loc main_arg0)) (m ((c.tc : Thread nD τ).loc main_arg3))) := by
  show StableHlo.after hostOps1 (W2 m ρ c) (Proc.devRef .tc main_v1) = _
  after_results
  exact exit0_spectral m ρ c

theorem entry1_row (c : Dev nD) :
    V3 m ρ c main_v2 = Cert.Spec.row (m ((c.tc : Thread nD τ).loc main_arg4)) := by
  show StableHlo.after hostOps1 (W2 m ρ c) (Proc.devRef .tc main_v2) = _
  after_results
  rw [exit0_filter]
  exact reshape_row _ _

/-! ## The result -/

/-- The result buffer at the second region's exit is the whole layer of the launch contents. -/
theorem result_eq (c : Dev nD) :
    W4 m ρ c (Proc.devRef .tc main_v3)
      = Cert.Spec.result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  refine (W4_arr m ρ c 3).trans ((Cert.KernelIdeal.Region1.array_after (V3 m ρ) c).trans ?_)
  rw [entry1_wav, entry1_row, entry1_spectral]
  rfl

/-- Every weakly fair execution of the idealized kernel program ends with the result buffer at the whole layer of the
    launch contents and the five arguments as launched. -/
theorem run : θ_run defs (onTc (τ := τ) (main (F := Ideal))) ⟨m, fun _ => 0, ρ⟩ (fun r => ∀ c : Dev nD,
      r.2.mem ((c.tc : Thread nD τ).loc main_v3)
        = Cert.Spec.result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (Cert.KernelIdeal.Run.run_main m ρ)

end Cert.KernelIdeal.Chain

end
-- ==== Proof.RefValue.lean ====
/-
  The reference, stage by stage, is the specification's layer.
  Its last contraction sums, over the 8192 nodes k, the scaled basis entry (Ψ ∘ filter)[r, k] times the spectral
  coefficient S[k, c]; the scaled basis is the pointwise product of Ψ with the filter broadcast first to one row
  and then down the rows, so its entry (r, k) is Ψ[r, k] · f[k]; the spectral coefficients are Ψ⁻¹ times X · W, two
  more contractions read as plain sums. Term by term these are the specification's sums, in the same order.
-/
import proofs.«167568_j67516885893333_1_alg».proof.Proof.Gen.ReferenceIdeal.Read
import proofs.«167568_j67516885893333_1_alg».proof.Proof.Spec

noncomputable section

namespace Cert.ReferenceIdeal.RefValue

open Cert.ReferenceIdeal Cert.ReferenceIdeal.Gen Cert.ReferenceIdeal.Read Idealize.ShloMosaic
open Idealize.ShloMosaic.ValueIdx

/-- A rank-2 index with known coordinates is the index built from them. -/
theorem eq_ix2_of_vals {n0 n1 : Nat} (j : (⟨2, ![n0, n1]⟩ : Shape).Idx) (a : Fin n0) (b : Fin n1)
    (h0 : (j 0).val = a.val) (h1 : (j 1).val = b.val) : j = ix2 a b :=
  funext fun e => Fin.ext (by
    match e with
    | ⟨0, _⟩ => exact h0
    | ⟨1, _⟩ => exact h1)

/-- X · W. -/
theorem proj_eq (x0 : FVec Ideal S8192x16 .f32) (x3 : FVec Ideal S16x16 .f32) :
    val_main_v0 (F := Ideal) x0 x3 = Cert.Spec.proj x0 x3 := by
  funext i
  rw [val_main_v0_apply]
  unfold Cert.Spec.proj
  refine Finset.sum_congr rfl fun k _ => ?_
  rw [eq_ix2_of_vals (lidx_main_v0 i k) ⟨(i 0).val, (i 0).isLt⟩ k rfl rfl,
    eq_ix2_of_vals (ridx_main_v0 i k) k ⟨(i 1).val, (i 1).isLt⟩ rfl rfl]

/-- Ψ⁻¹ · (X · W). -/
theorem spectral_eq (x0 : FVec Ideal S8192x16 .f32) (x2 : FVec Ideal S8192x8192 .f32) (x3 : FVec Ideal S16x16 .f32) :
    val_main_v1 (F := Ideal) x0 x2 x3 = Cert.Spec.mm x2 (Cert.Spec.proj x0 x3) := by
  funext i
  rw [val_main_v1_apply, proj_eq]
  unfold Cert.Spec.mm
  refine Finset.sum_congr rfl fun k _ => ?_
  rw [eq_ix2_of_vals (lidx_main_v1 i k) ⟨(i 0).val, (i 0).isLt⟩ k rfl rfl,
    eq_ix2_of_vals (ridx_main_v1 i k) k ⟨(i 1).val, (i 1).isLt⟩ rfl rfl]

/-- The basis with its columns scaled: entry (r, k) is Ψ[r, k] · f[k], the filter read through its one-row layout. -/
theorem scaled_at (x1 : FVec Ideal S8192x8192 .f32) (x4 : FVec Ideal S8192 .f32) (r k : Fin 8192) :
    val_main_v4 (F := Ideal) x1 x4 (ix2 r k) = x1 (ix2 r k) * Cert.Spec.row x4 (ix2 (n0 := 1) (n1 := 8192) 0 k) := by
  rw [val_main_v4_apply, val_main_v3_apply, val_main_v2_apply, Ideal.mulf_def]
  unfold Cert.Spec.row
  refine congrArg (x1 (ix2 r k) * ·) (congrArg x4 (funext fun a => Fin.ext ?_))
  match a with
  | ⟨0, _⟩ => rfl

/-- The reference's result is the whole layer of its five arguments. -/
theorem result_eq (x0 : FVec Ideal S8192x16 .f32) (x1 x2 : FVec Ideal S8192x8192 .f32) (x3 : FVec Ideal S16x16 .f32)
    (x4 : FVec Ideal S8192 .f32) :
    val_main_v5 (F := Ideal) x0 x1 x2 x3 x4 = Cert.Spec.result x0 x1 x2 x3 x4 := by
  funext i
  rw [val_main_v5_apply, spectral_eq]
  unfold Cert.Spec.result Cert.Spec.mmScaled
  refine Finset.sum_congr rfl fun k _ => ?_
  rw [eq_ix2_of_vals (lidx_main_v5 i k) ⟨(i 0).val, (i 0).isLt⟩ k rfl rfl,
    eq_ix2_of_vals (ridx_main_v5 i k) k ⟨(i 1).val, (i 1).isLt⟩ rfl rfl, scaled_at]

end Cert.ReferenceIdeal.RefValue

end
-- ==== Proof.lean ====
/-
  A graph-wavelet layer: out = Ψ · diag(f) · Ψ⁻¹ · X · W, with X : [8192, 16] node features, W : [16, 16] weights,
  Ψ⁻¹ and Ψ : [8192, 8192] the inverse and forward wavelet bases, f : [8192] the spectral filter.

  The kernel program computes T = X · W on the host, S = Ψ⁻¹ · T in a first kernel region (32 row tiles of 256 rows,
  each one matrix product of a [256, 8192] row block with the resident [8192, 16] matrix), lays f out as a [1, 8192]
  row, and in a second region computes, per row tile, the row block of Ψ with column k scaled by f[k], times the
  resident S. The reference scales the columns of the whole Ψ by f and takes the same three contractions on the host.
  Over the extended reals the narrowing of operands to bf16 is the identity and each contraction is the plain finite
  sum of products, so both programs compute, entry by entry,
      out[r, c] = ∑ₖ (Ψ[r, k] · f[k]) · (∑ⱼ Ψ⁻¹[k, j] · (∑ᵢ X[j, i] · W[i, c])),
  with every product taken in the same order on both sides: the two results are the same term, and no law of the
  reals (hence no finiteness of the inputs) is needed to join them.

  The frames of the two kernel programs are the generated ones; the reference's frame is its run with the result
  dropped; the idealization rewrote nothing, so there is nothing to preserve.
-/
import proofs.«167568_j67516885893333_1_alg».proof.Defs
import proofs.«167568_j67516885893333_1_alg».proof.Proof.Gen.Kernel
import proofs.«167568_j67516885893333_1_alg».proof.Proof.Gen.Kernel.Skeleton
import proofs.«167568_j67516885893333_1_alg».proof.Proof.Gen.Kernel.Launch
import proofs.«167568_j67516885893333_1_alg».proof.Proof.Gen.Kernel.Points
import proofs.«167568_j67516885893333_1_alg».proof.Proof.Gen.Kernel.Frame
import proofs.«167568_j67516885893333_1_alg».proof.Proof.Gen.KernelIdeal
import proofs.«167568_j67516885893333_1_alg».proof.Proof.Gen.KernelIdeal.Skeleton
import proofs.«167568_j67516885893333_1_alg».proof.Proof.Gen.KernelIdeal.Launch
import proofs.«167568_j67516885893333_1_alg».proof.Proof.Gen.KernelIdeal.Points
import proofs.«167568_j67516885893333_1_alg».proof.Proof.Gen.KernelIdeal.Frame
import proofs.«167568_j67516885893333_1_alg».proof.Proof.Gen.ReferenceIdeal
import proofs.«167568_j67516885893333_1_alg».proof.Proof.Gen.ReferenceIdeal.Run
import proofs.«167568_j67516885893333_1_alg».proof.Proof.Gen.ReferenceIdeal.Read
import proofs.«167568_j67516885893333_1_alg».proof.Proof.Gen.Pre_finite_inputs
import proofs.«167568_j67516885893333_1_alg».proof.Proof.Chain
import proofs.«167568_j67516885893333_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Run from memories that agree on the five arguments, the idealized kernel program and the idealized reference both
    end with the result array at the whole layer of those arguments: the kernel's four segments chained, the
    reference's six host operations read stage by stage. -/
theorem algebraic : Cert.algebraic_KernelIdeal_ReferenceIdeal := by
  intro m ρ m' ρ' _ hagree
  refine ⟨fun c => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Chain.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [a0, a1, a2, a3, a4]
  exact (Cert.ReferenceIdeal.Read.val_main_v5_eq _ _ _ _ _).trans (Cert.ReferenceIdeal.RefValue.result_eq _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
